-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x8192x1024 .f32) (main_arg1 : FVec F S1024 .f32) (main_arg2 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4x8192x1024 : Shape := ⟨3, ![4, 8192, 1024]⟩
abbrev S1024 : Shape := ⟨1, ![1024]⟩
abbrev S32768x1024 : Shape := ⟨2, ![32768, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S32768x1024, .f32⟩
  | .hbm, ⟨4, _⟩ => ⟨S32768x1024, .f32⟩
  | .hbm, ⟨5, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024, .f32⟩
  | .local _ .vmem, ⟨3, _⟩ => ⟨S1024, .f32⟩
  | .local _ .vmem, ⟨4, _⟩ => ⟨S1024x1024, .f32⟩
  | .local _ .vmem, ⟨5, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x1024_S32768x1024 : S4x8192x1024.ShapeCasts S32768x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S32768x1024_S4x8192x1024 : S32768x1024.ShapeCasts S4x8192x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S4x8192x1, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1024, .f32⟩
  | .hbm, ⟨42, _⟩ => ⟨S4x8192x1024, .f32⟩
  | .hbm, ⟨43, _⟩ => ⟨S1x1x1024, .f32⟩
  | .hbm, ⟨44, _⟩ => ⟨S4x8192x1024, .f32⟩
  | .hbm, ⟨45, _⟩ => ⟨S4x8192x1024, .f32⟩
  | .hbm, ⟨46, _⟩ => ⟨S1x1x1024, .f32⟩
  | .hbm, ⟨47, _⟩ => ⟨S4x8192x1024, .f32⟩
  | .hbm, ⟨48, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)

variable [Facts₀]

class Facts : Prop extends Facts₀ where

variable [Facts]
-- ==== Proof.RowNorm.lean ====
/-
  Row normalisation on the extended reals: the one function both programs compute.

  A row `xr` of 1024 extended reals goes to the row `d ↦ (xr d − μ) / σ · w + b`, where `μ = (Σₖ xr k) / 1024` is
  the row's mean, `a = (Σₖ (xr k − μ)²) / 1024 + ε` its mean squared deviation plus `ε`, and `σ` the fourth iterate of
  `s ↦ (s / a + a) · ½` started at `s = a`. The three float words — 1024, `ε` (the binary32 number nearest 5·10⁻⁵) and
  ½ — stay words: both programs carry the same words, so their values are never needed. Quotients are `Ideal.div`,
  the extended reals' total quotient; nothing here cancels, distributes or reorders, so no entry has to be finite.

  The array comes in two arrangements: `[4, 8192, 1024]`, rows indexed `(p, q)`, and flattened to `[32768, 1024]`,
  row `p · 8192 + q`. `cube` normalises the rows of the first, `flat` those of the second, and
  `unflatten_flat_flatten` says that flattening, normalising and unflattening is normalising in place: a row is the
  same 1024 entries in either arrangement.

  Also here, for any extents: three layout reads the row function meets — a vector cast to a column, a column
  broadcast along the rows, and a sum over the lanes of one row.
-/
import Idealize.ShloMosaic.PureOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowNorm

open Idealize.ShloMosaic Idealize.ShloMosaic.ValueIdx
open scoped BigOperators

/-! ## One row -/

/-- The row length, as the float word the sums are divided by. -/
def cols : EReal := Ideal.ofBits .f32 0x44800000#32
/-- `ε`, as its float word. -/
def eps : EReal := Ideal.ofBits .f32 0x3851B717#32
/-- One half, as its float word. -/
def half : EReal := Ideal.ofBits .f32 0x3F000000#32

/-- The mean of a row. -/
def mean (xr : Fin 1024 → EReal) : EReal := Ideal.div (∑ k, xr k) cols
/-- An entry's deviation from its row's mean. -/
def dev (xr : Fin 1024 → EReal) (k : Fin 1024) : EReal := xr k - mean xr
/-- The mean squared deviation of a row, plus `ε`. -/
def spread (xr : Fin 1024 → EReal) : EReal := Ideal.div (∑ k, dev xr k * dev xr k) cols + eps
/-- One step of the iteration toward the square root of `a`. -/
def step (a s : EReal) : EReal := (Ideal.div s a + a) * half
/-- Four steps, started at `a` itself. -/
def root (a : EReal) : EReal := step a (step a (step a (step a a)))
/-- Entry `d` of the normalised row, scaled by `w` and shifted by `b`. -/
def entry (xr : Fin 1024 → EReal) (w b : EReal) (d : Fin 1024) : EReal :=
  Ideal.div (dev xr d) (root (spread xr)) * w + b

/-! ## The two arrangements -/

abbrev Cube : Shape := ⟨3, ![4, 8192, 1024]⟩
abbrev Flat : Shape := ⟨2, ![32768, 1024]⟩
abbrev Lane : Shape := ⟨1, ![1024]⟩

/-- Every row of the flattened array normalised; scale and shift go by column. -/
def flat (x : Flat.Idx → EReal) (w b : Lane.Idx → EReal) : Flat.Idx → EReal :=
  fun i => entry (fun k => x (ix2 (i 0) k)) (w (ix1 (i 1))) (b (ix1 (i 1))) (i 1)

/-- Every row `(p, q)` of the three-axis array normalised. -/
def cube (x : Cube.Idx → EReal) (w b : Lane.Idx → EReal) : Cube.Idx → EReal :=
  fun i => entry (fun k => x (ix3 (i 0) (i 1) k)) (w (ix1 (i 2))) (b (ix1 (i 2))) (i 2)

theorem flat_apply (x : Flat.Idx → EReal) (w b : Lane.Idx → EReal) (r : Fin 32768) (d : Fin 1024) :
    flat x w b (ix2 r d) = entry (fun k => x (ix2 r k)) (w (ix1 d)) (b (ix1 d)) d := rfl

theorem cube_apply (x : Cube.Idx → EReal) (w b : Lane.Idx → EReal) (p : Fin 4) (q : Fin 8192) (d : Fin 1024) :
    cube x w b (ix3 p q d) = entry (fun k => x (ix3 p q k)) (w (ix1 d)) (b (ix1 d)) d := rfl

/-- The flattened array at `(r, k)`, `r = p · 8192 + q`, is the three-axis one at `(p, q, k)`: equal row-major positions. -/
theorem flatten_apply {α : Type} (x : Cube.Idx → α) (h : Cube.ShapeCasts Flat) (p : Fin 4) (q : Fin 8192) (k : Fin 1024)
    (r : Fin 32768) (hr : r.val = p.val * 8192 + q.val) : shapeCast Flat x h (ix2 r k) = x (ix3 p q k) :=
  shapeCast_apply x h _ _ (by
    rw [Shape.rowMajor_val_two, Shape.rowMajor_val_three]
    show (p.val * 8192 + q.val) * 1024 + k.val = r.val * 1024 + k.val
    rw [hr])

/-- And back: the three-axis array at `(p, q, d)` is the flattened one at `(p · 8192 + q, d)`. -/
theorem unflatten_apply {α : Type} (y : Flat.Idx → α) (h : Flat.ShapeCasts Cube) (p : Fin 4) (q : Fin 8192) (d : Fin 1024)
    (r : Fin 32768) (hr : r.val = p.val * 8192 + q.val) : shapeCast Cube y h (ix3 p q d) = y (ix2 r d) :=
  shapeCast_apply y h _ _ (by
    rw [Shape.rowMajor_val_two, Shape.rowMajor_val_three]
    show r.val * 1024 + d.val = (p.val * 8192 + q.val) * 1024 + d.val
    rw [hr])

/-- Flatten, normalise the rows, unflatten: the rows normalised in place. Row `p · 8192 + q` of the flattened array
    is row `(p, q)`, entry for entry, and the row function sees nothing else. -/
theorem unflatten_flat_flatten (x : Cube.Idx → EReal) (w b : Lane.Idx → EReal) (h1 : Cube.ShapeCasts Flat)
    (h2 : Flat.ShapeCasts Cube) : shapeCast Cube (flat (shapeCast Flat x h1) w b) h2 = cube x w b := by
  funext i
  obtain ⟨p, q, d, rfl⟩ : ∃ (p : Fin 4) (q : Fin 8192) (d : Fin 1024), i = ix3 p q d := ⟨i 0, i 1, i 2, eq_ix3 i⟩
  have hr : p.val * 8192 + q.val < 32768 := by have := p.isLt; have := q.isLt; omega
  rw [unflatten_apply _ h2 p q d ⟨p.val * 8192 + q.val, hr⟩ rfl, flat_apply, cube_apply]
  refine congrArg (fun f => entry f (w (ix1 d)) (b (ix1 d)) d) (funext fun k => ?_)
  exact flatten_apply x h1 p q k _ rfl

/-! ## Layout reads, any extents -/

/-- A vector `[a]` cast to a column `[a, 1]` reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of a `[a, b]` array, read at row `p`: the sum of that row's `b` entries. The accumulator
    is the zero word, which the sum leaves out. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ =>
    congrArg src (funext fun c => Fin.ext (by match c with | ⟨0, _⟩ => rfl | ⟨1, _⟩ => rfl))

end Cert.RowNorm

end
-- ==== Proof.BlockRows.lean ====
/-
  What the kernel's body stores into one block, entry by entry.

  The body loads a block of 1024 rows of 1024 entries, the scale vector and the shift vector, and stores one
  block. Its arithmetic never mixes rows: the two lane sums run along a row, every other operation is pointwise
  or a broadcast of a per-row or per-column value. So the stored entry `(p, q)` is entry `q` of row `p` of the
  loaded block, normalised (Proof/RowNorm.lean's `entry`), with the scale and the shift taken at column `q`.
-/
import proofs.«129233_j15470472200509_1_alg».proof.Proof.Gen.KernelIdeal.Skeleton
import proofs.«129233_j15470472200509_1_alg».proof.Proof.RowNorm

noncomputable section

namespace Cert.KernelIdeal.BlockRows

open Cert.KernelIdeal Cert.KernelIdeal.Gen Idealize.ShloMosaic Idealize.ShloMosaic.ValueIdx Cert.RowNorm
open scoped BigOperators

/-- The stored block at `(p, q)`: row `p` of the loaded block normalised, read at `q`. Each operation is read at an
    index: the pointwise ones by definition, the column cast, the two broadcasts and the lane sum by their lemmas. -/
theorem stored_apply (x0 : Vec Ideal S1024x1024 .f32) (x1 x2 : Vec Ideal S1024 .f32) (p q : Fin 1024) :
    k0_pay1 (F := Ideal) x0 x1 x2 (ix2 p q) = entry (fun k => x0 (ix2 p k)) (x1 (ix1 q)) (x2 (ix1 q)) q := by
  -- the vector of row sums, every row at once: entry j is the sum of row j of the block
  have hsum : multiReduction (F := Ideal) .add [1] S1024 x0 0x00000000#32 reduces_S1024x1024_S1024 (.inl rfl) rfl
      = (fun (j : S1024.Idx) => ∑ k : Fin 1024, x0 (ix2 (j 0) k) : FVec Ideal S1024 .f32) := by
    funext j
    obtain ⟨r, rfl⟩ : ∃ r : Fin 1024, j = ix1 r := ⟨j 0, eq_ix1 j⟩
    exact laneSum_apply x0 _ _ _ r
  unfold k0_pay1
  simp only [shapeCast_self]
  rw [hsum]
  -- entry (p, q), down to the sum of the squared deviations of row p
  simp only [addf_apply, mulf_apply, subf_apply, divf_apply, broadcast_apply,
    broadcastTo_a1_ab_apply, shapeCast_a_a1_apply, shapeCast_a_1a_apply, broadcastTo_1b_ab_apply]
  rw [laneSum_apply]
  -- and each squared deviation under that sum, at (p, k)
  simp only [mulf_apply, subf_apply, divf_apply, broadcast_apply, broadcastTo_a1_ab_apply, shapeCast_a_a1_apply]
  rfl

end Cert.KernelIdeal.BlockRows

end
-- ==== Proof.KernelRows.lean ====
/-
  The kernel's result array: every row of the argument normalised in place.

  The program flattens its `[4, 8192, 1024]` argument to `[32768, 1024]`, runs the row kernel over 32 blocks of 1024
  rows, and unflattens the region's output. Grid point `t` reads block `t` of the flattened array (rows
  `1024 t … 1024 t + 1023`, every column), the whole scale and shift vectors, and writes block `t` of the output.
  Since the body normalises each row of its block by itself (Proof/BlockRows.lean), what point `t` writes back is
  block `t` of `flat` of the flattened array: row `p` of the block IS row `1024 t + p` of the array. The 32 blocks
  tile the output (row `r` lies in block `r / 1024`), so after the region it holds `flat` everywhere, and the
  unflattening of `flat` of the flattening is `cube` (Proof/RowNorm.lean).
-/
import proofs.«129233_j15470472200509_1_alg».proof.Proof.Gen.KernelIdeal.Frame
import proofs.«129233_j15470472200509_1_alg».proof.Proof.BlockRows
import proofs.«129233_j15470472200509_1_alg».proof.Proof.RowNorm
import Idealize.ShloMosaic.Lib.Pipeline.Value
import Idealize.ShloMosaic.Lib.StableHlo.Run

set_option maxRecDepth 16384

noncomputable section

namespace Cert.KernelIdeal.KernelRows

open Cert.KernelIdeal Cert.KernelIdeal.Gen Cert.KernelIdeal.BlockRows Cert.RowNorm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The blocks -/

theorem off2 : (![0, 0] : Fin 2 → Nat) = fun _ => 0 := funext fun a => by fin_cases a <;> rfl
theorem off1 : (![0] : Fin 1 → Nat) = fun _ => 0 := funext fun a => by fin_cases a <;> rfl

/-- The printed index maps over the 32 grid points: the input block and the output block have the same row-block
    index and column-block index 0; the scale and the shift are always block 0. -/
theorem idx_facts : ∀ t : Fin cfg0.N, win0_0.index t (0 : Fin 2) = win0_3.index t (0 : Fin 2)
    ∧ win0_0.index t (1 : Fin 2) = 0
    ∧ win0_3.index t (1 : Fin 2) = 0
    ∧ win0_1.index t (0 : Fin 1) = 0
    ∧ win0_2.index t (0 : Fin 1) = 0
    ∧ win0_3.index t (0 : Fin 2) ≤ 31 :=
  (by decide +kernel : ∀ t : Fin grid0.N, _)

/-- Every row block of the output is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- What point `t` writes back is block `t` of the rows of the flattened array normalised. -/
theorem flushed_eq (c : Dev nD) (t : Fin cfg0.N) :
    (dats m 0 c).flushed 3 t
      = ((cfg0.win 3).blk t).view.read (Elt Ideal) (flat (V m c main_v0) (V m c main_arg1) (V m c main_arg2)) := by
  show (cfg0.win 3).cut (grid0.coords t) ((dats m 0 c).after 3 t) = _
  rw [after0_3]
  unfold out0_3
  rw [View.canon_unit_zero off2]
  simp only [View.ld_unit_zero (S := S1024x1024) off2, View.ld_unit_zero (S := S1024) off1]
  obtain ⟨e0, e1, e2, e3, e4, e5⟩ := idx_facts t
  funext j
  obtain ⟨p, q, rfl⟩ : ∃ (p q : Fin 1024), j = ix2 p q := ⟨j 0, j 1, eq_ix2 j⟩
  have hp : p.val < 1024 := p.isLt
  have hq : q.val < 1024 := q.isLt
  have hr : win0_3.index t (0 : Fin 2) * 1024 + p.val < 32768 := by omega
  -- the output entry's place in the array: row 1024 t + p, column q
  have hout : ((cfg0.win 3).blk t).view.emb (ix2 p q) = ix2 ⟨win0_3.index t (0 : Fin 2) * 1024 + p.val, hr⟩ q := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 1024 + 1 * q.val = q.val; omega
  -- the input block's row p is that row of the array
  have hin : ∀ k : Fin 1024, iblk m c 0 t (ix2 p k)
      = V m c main_v0 (ix2 ⟨win0_3.index t (0 : Fin 2) * 1024 + p.val, hr⟩ k) := by
    intro k
    show V m c main_v0 (((cfg0.win 0).blk t).view.emb (ix2 p k)) = _
    refine congrArg (V m c main_v0) ?_
    funext a; apply Fin.ext
    have hk : k.val < 1024 := k.isLt
    match a with
    | ⟨0, _⟩ => show win0_0.index t (0 : Fin 2) * 1024 + 1 * p.val = win0_3.index t (0 : Fin 2) * 1024 + p.val; omega
    | ⟨1, _⟩ => show win0_0.index t (1 : Fin 2) * 1024 + 1 * k.val = k.val; omega
  -- the scale and the shift blocks are the whole vectors
  have hw : iblk m c 1 t (ix1 q) = V m c main_arg1 (ix1 q) := by
    show V m c main_arg1 (((cfg0.win 1).blk t).view.emb (ix1 q)) = _
    refine congrArg (V m c main_arg1) ?_
    funext a; apply Fin.ext
    match a with
    | ⟨0, _⟩ => show win0_1.index t (0 : Fin 1) * 1024 + 1 * q.val = q.val; omega
  have hb : iblk m c 2 t (ix1 q) = V m c main_arg2 (ix1 q) := by
    show V m c main_arg2 (((cfg0.win 2).blk t).view.emb (ix1 q)) = _
    refine congrArg (V m c main_arg2) ?_
    funext a; apply Fin.ext
    match a with
    | ⟨0, _⟩ => show win0_2.index t (0 : Fin 1) * 1024 + 1 * q.val = q.val; omega
  show k0_pay1 (iblk m c 0 t) (iblk m c 1 t) (iblk m c 2 t) (ix2 p q)
    = flat (V m c main_v0) (V m c main_arg1) (V m c main_arg2) (((cfg0.win 3).blk t).view.emb (ix2 p q))
  rw [hout, flat_apply]
  refine (stored_apply (iblk m c 0 t) (iblk m c 1 t) (iblk m c 2 t) p q).trans ?_
  rw [hw, hb]
  exact congrArg (fun f => entry f (V m c main_arg1 (ix1 q)) (V m c main_arg2 (ix1 q)) q) (funext hin)

/-- An index of the output array is in point `t`'s block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- The blocks tile the output: row `r` is in block `r / 1024`. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- The region's output array after the run: the rows of the flattened array normalised. -/
theorem output_eq (c : Dev nD) :
    (dats m 0 c).arrAt 3 cfg0.N = flat (V m c main_v0) (V m c main_arg1) (V m c main_arg2) :=
  (dats m 0 c).arrAt_eq_of_cover 3 _ (fun t _ => flushed_eq m c t) covered

/-! ## The host lines around the region -/

/-- The region finds the flattened argument in `main_v0`. -/
theorem entry_flat (c : Dev nD) :
    (V m c main_v0 : S32768x1024.Idx → EReal)
      = shapeCast S32768x1024 (m ((c : Thread nD τ).loc main_arg0)) shapeCasts_S4x8192x1024_S32768x1024 := by
  show StableHlo.after hostOps0 (fun b => m (c, b)) (Proc.devRef .tc main_v0) = _
  after_results
  rfl

/-- The result buffer after the last host line: the unflattening of the region's output array. -/
theorem tail_eq (c : Dev nD) :
    (Pipeline.afterTail₀ cfgs (dats m) 0 (V0 m) [hostOps1] c main_v2 : S4x8192x1024.Idx → EReal)
      = cube (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  have harr := (Pipeline.withArrays_arr spec0 launch0.win.arr_inj c (V0 m c) (fun w => (dats m 0 c).arrAt w cfg0.N) 3).trans
    (output_eq m c)
  show shapeCast S4x8192x1024
      (Pipeline.withArrays spec0 c (V0 m c) (fun w => (dats m 0 c).arrAt w cfg0.N) (Proc.devRef .tc (Pipeline.arrRef spec0 3)))
      shapeCasts_S32768x1024_S4x8192x1024 = _
  rw [harr, entry_flat, V_main_arg1, V_main_arg2]
  exact unflatten_flat_flatten _ _ _ _ _

/-! ## The run -/

/-- Every execution of the program ends with its result buffer at the rows of the argument normalised in place, and
    the three arguments as they were: the result is the host tail's, the first argument is touched by no window and
    by no host line after the region, the scale and the shift are inputs the region leaves at their entry contents. -/
theorem run : θ_run defs (onTc (τ := τ) (main (F := Ideal))) ⟨m, fun _ => 0, ρ⟩ fun r => ∀ c : Dev nD,
      r.2.mem ((c.tc : Thread nD τ).loc main_v2)
        = cube (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelRows

end
-- ==== Proof.RefRows.lean ====
/-
  The reference computes `cube`: every row `(p, q)` of the three-axis array normalised in place.

  The reference's operations are read one at a time at an index (the generated stage lemmas) and gathered, stage
  by stage, over ONE row `k ↦ x (p, q, k)`: the quotient of the row sum by 1024 is the row's mean; the difference is
  the deviation; the quotient of the sum of squared deviations, plus `ε`, is the spread; the twelve operations after
  it are the four steps toward its root, all at the same column index `(p, q, 0)`; the last five divide, scale by
  the weight at column `d` and shift by the bias at column `d`. The host's sum starts from the zero word, and
  `0 + s = s` for every extended real `s`, the infinities included. Each index function the stage lemmas compose is
  one of `(p, q, k)`, `(p, q, 0)` or `d`, checked axis by axis.
-/
import proofs.«129233_j15470472200509_1_alg».proof.Defs
import proofs.«129233_j15470472200509_1_alg».proof.Proof.Gen.ReferenceIdeal.Run
import proofs.«129233_j15470472200509_1_alg».proof.Proof.Gen.ReferenceIdeal.Read
import proofs.«129233_j15470472200509_1_alg».proof.Proof.RowNorm

noncomputable section

namespace Cert.ReferenceIdeal.RefRows

open Cert.ReferenceIdeal Cert.ReferenceIdeal.Gen Cert.ReferenceIdeal.Read Idealize.ShloMosaic Idealize.ShloMosaic.ValueIdx
open Cert.RowNorm
open scoped BigOperators

variable (x0 : (⟨S4x8192x1024, .f32⟩ : BufTy).Contents (Elt Ideal))
variable (x1 x2 : (⟨S1024, .f32⟩ : BufTy).Contents (Elt Ideal))

/-! ## The composed index functions -/

/-- The summand index of either row sum, reached through the column `(p, q, u)`: `(p, q, k)`. -/
theorem sum0_idx (p : Fin 4) (q : Fin 8192) (u : Fin 1) (k : Fin 1024) :
    idx_main_v0 (idx_main_v1 (ix3 p q u)) k = ix3 p q k :=
  funext fun a => Fin.ext (by match a with | ⟨0, _⟩ => rfl | ⟨1, _⟩ => rfl | ⟨2, _⟩ => rfl)
theorem sum7_idx (p : Fin 4) (q : Fin 8192) (u : Fin 1) (k : Fin 1024) :
    idx_main_v7 (idx_main_v8 (ix3 p q u)) k = ix3 p q k :=
  funext fun a => Fin.ext (by match a with | ⟨0, _⟩ => rfl | ⟨1, _⟩ => rfl | ⟨2, _⟩ => rfl)
/-- A column value broadcast along the row is read at `(p, q, 0)`. -/
theorem col4_idx (p : Fin 4) (q : Fin 8192) (d : Fin 1024) : idx_main_v4 (ix3 p q d) = ix3 p q (0 : Fin 1) :=
  funext fun a => Fin.ext (by match a with | ⟨0, _⟩ => rfl | ⟨1, _⟩ => rfl | ⟨2, _⟩ => rfl)
theorem col29_idx (p : Fin 4) (q : Fin 8192) (d : Fin 1024) : idx_main_v29 (ix3 p q d) = ix3 p q (0 : Fin 1) :=
  funext fun a => Fin.ext (by match a with | ⟨0, _⟩ => rfl | ⟨1, _⟩ => rfl | ⟨2, _⟩ => rfl)
/-- The weight and the bias, broadcast over the rows, are read at column `d`. -/
theorem lane31_idx (p : Fin 4) (q : Fin 8192) (d : Fin 1024) : idx_main_v31 (idx_main_v32 (ix3 p q d)) = ix1 d :=
  funext fun a => Fin.ext (by match a with | ⟨0, _⟩ => rfl)
theorem lane34_idx (p : Fin 4) (q : Fin 8192) (d : Fin 1024) : idx_main_v34 (idx_main_v35 (ix3 p q d)) = ix1 d :=
  funext fun a => Fin.ext (by match a with | ⟨0, _⟩ => rfl)

/-! ## The stages over one row -/

/-- The row sum over 1024, as a column: the row's mean. -/
theorem mean_stage (p : Fin 4) (q : Fin 8192) (u : Fin 1) :
    val_main_v3 (F := Ideal) x0 (ix3 p q u) = mean (fun k => x0 (ix3 p q k)) := by
  rw [val_main_v3_apply, val_main_v1_apply, val_main_v0_apply, val_main_v2_apply, val_main_cst_0_apply,
    val_main_cst_apply]
  simp only [sum0_idx, Ideal.ofBits_def, Ideal.ofBits_zero_f32, zero_add]
  rfl

/-- The entry less its row's mean: the deviation. -/
theorem dev_stage (p : Fin 4) (q : Fin 8192) (d : Fin 1024) :
    val_main_v5 (F := Ideal) x0 (ix3 p q d) = dev (fun k => x0 (ix3 p q k)) d := by
  rw [val_main_v5_apply, val_main_v4_apply, col4_idx, mean_stage]
  rfl

/-- The sum of the squared deviations over 1024, plus `ε`: the spread. -/
theorem spread_stage (p : Fin 4) (q : Fin 8192) (u : Fin 1) :
    val_main_v12 (F := Ideal) x0 (ix3 p q u) = spread (fun k => x0 (ix3 p q k)) := by
  rw [val_main_v12_apply, val_main_v10_apply, val_main_v8_apply, val_main_v7_apply, val_main_v9_apply,
    val_main_cst_2_apply, val_main_v11_apply, val_main_cst_3_apply, val_main_cst_1_apply]
  simp only [sum7_idx, val_main_v6_apply, dev_stage, Ideal.ofBits_def, Ideal.ofBits_zero_f32, zero_add]
  rfl

/-- The twelve operations after the spread, all at the same column index: the four steps toward its root. -/
theorem root_stage (p : Fin 4) (q : Fin 8192) (u : Fin 1) :
    val_main_v28 (F := Ideal) x0 (ix3 p q u) = root (spread (fun k => x0 (ix3 p q k))) := by
  simp only [val_main_v28_apply, val_main_v27_apply, val_main_cst_7_apply, val_main_v26_apply, val_main_v25_apply,
    val_main_v24_apply, val_main_v23_apply, val_main_cst_6_apply, val_main_v22_apply, val_main_v21_apply,
    val_main_v20_apply, val_main_v19_apply, val_main_cst_5_apply, val_main_v18_apply, val_main_v17_apply,
    val_main_v16_apply, val_main_v15_apply, val_main_cst_4_apply, val_main_v14_apply, val_main_v13_apply,
    spread_stage]
  rfl

/-- The result at `(p, q, d)`: the deviation over the root, times the weight at `d`, plus the bias at `d`. -/
theorem entry_stage (p : Fin 4) (q : Fin 8192) (d : Fin 1024) :
    val_main_v36 (F := Ideal) x0 x1 x2 (ix3 p q d)
      = entry (fun k => x0 (ix3 p q k)) (x1 (ix1 d)) (x2 (ix1 d)) d := by
  rw [val_main_v36_apply, val_main_v33_apply, val_main_v35_apply, val_main_v34_apply, val_main_v30_apply,
    val_main_v32_apply, val_main_v31_apply, val_main_v29_apply, col29_idx, lane31_idx, lane34_idx, root_stage,
    dev_stage]
  rfl

/-- The reference's result, as one function of its three arguments: the rows normalised in place. -/
theorem result_eq : val_main_v36 (F := Ideal) x0 x1 x2 = cube x0 x1 x2 := by
  funext i
  obtain ⟨p, q, d, rfl⟩ : ∃ (p : Fin 4) (q : Fin 8192) (d : Fin 1024), i = ix3 p q d := ⟨i 0, i 1, i 2, eq_ix3 i⟩
  rw [entry_stage, cube_apply]

end Cert.ReferenceIdeal.RefRows

end
-- ==== Proof.lean ====
/-
  The kernel normalises the rows of a `[4, 8192, 1024]` array: each row of 1024 entries has its mean taken off, is
  divided by four steps of `s ↦ (s / a + a) · ½` from `s = a` (`a` the row's mean squared deviation plus `ε`), scaled by
  a weight and shifted by a bias, both per column. The kernel does it on the array flattened to `[32768, 1024]`, 1024
  rows to a grid point, and unflattens; the reference does it in place, broadcasting each per-row and per-column value. At the ideal
  instance both are the same composition of exact operations with the same float words, so no algebraic law joins
  them and no entry has to be finite: the equation is "a row is a row in either arrangement".

  Proof/RowNorm.lean states the row function and the law between the two arrangements; Proof/BlockRows.lean reads
  the kernel body's stored block entry by entry; Proof/KernelRows.lean goes from the blocks to the kernel's result
  array; Proof/RefRows.lean reads the reference's result. The frames of both kernel programs are the generated ones;
  the reference's frame is its generated run with the result dropped. The idealization rewrote nothing.
-/
import proofs.«129233_j15470472200509_1_alg».proof.Defs
import proofs.«129233_j15470472200509_1_alg».proof.Proof.Gen.Kernel
import proofs.«129233_j15470472200509_1_alg».proof.Proof.Gen.Kernel.Skeleton
import proofs.«129233_j15470472200509_1_alg».proof.Proof.Gen.Kernel.Launch
import proofs.«129233_j15470472200509_1_alg».proof.Proof.Gen.Kernel.Points
import proofs.«129233_j15470472200509_1_alg».proof.Proof.Gen.Kernel.Frame
import proofs.«129233_j15470472200509_1_alg».proof.Proof.Gen.KernelIdeal
import proofs.«129233_j15470472200509_1_alg».proof.Proof.Gen.KernelIdeal.Skeleton
import proofs.«129233_j15470472200509_1_alg».proof.Proof.Gen.KernelIdeal.Launch
import proofs.«129233_j15470472200509_1_alg».proof.Proof.Gen.KernelIdeal.Points
import proofs.«129233_j15470472200509_1_alg».proof.Proof.Gen.KernelIdeal.Frame
import proofs.«129233_j15470472200509_1_alg».proof.Proof.Gen.ReferenceIdeal
import proofs.«129233_j15470472200509_1_alg».proof.Proof.Gen.ReferenceIdeal.Run
import proofs.«129233_j15470472200509_1_alg».proof.Proof.Gen.ReferenceIdeal.Read
import proofs.«129233_j15470472200509_1_alg».proof.Proof.Gen.Pre_finite_inputs
import proofs.«129233_j15470472200509_1_alg».proof.Proof.RowNorm
import proofs.«129233_j15470472200509_1_alg».proof.Proof.KernelRows
import proofs.«129233_j15470472200509_1_alg».proof.Proof.RefRows
import Idealize.ShloMosaic.Adequacy
import Idealize.ShloMosaic.Init

noncomputable section

namespace Cert.Proof

open Idealize.ShloMosaic Idealize.ShloMosaic.TcCoe Idealize.SL.Sem Cert.RowNorm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result buffer ends at `cube` of its arguments (Proof/KernelRows.lean), the reference's at its last
    stage, which is `cube` of its own (Proof/RefRows.lean); the arguments agree. -/
theorem algebraic : Cert.algebraic_KernelIdeal_ReferenceIdeal := by
  intro m ρ m' ρ' _ hagree
  refine ⟨fun c => cube (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefRows.result_eq, (hagree c).1, (hagree c).2.1,
    (hagree c).2.2]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
